-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S2x2048x512 : Shape := ⟨3, ![2, 2048, 512]⟩
abbrev S2x2048x2048 : Shape := ⟨3, ![2, 2048, 2048]⟩
abbrev S2x512x256 : Shape := ⟨3, ![2, 512, 256]⟩
abbrev S2x256 : Shape := ⟨2, ![2, 256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S2x2048x512 : S_.BroadcastsInDim S2x2048x512 (![] : Fin 0 → Fin S2x2048x512.rank)
  reducesTo_S2x2048x512_S_d0_1_2 : S2x2048x512.ReducesTo [0, 1, 2] S_
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S2x512x256 : S_.BroadcastsInDim S2x512x256 (![] : Fin 0 → Fin S2x512x256.rank)
  reducesTo_S2x512x256_S_d0_1_2 : S2x512x256.ReducesTo [0, 1, 2] S_
  bcast_S_S2x256 : S_.BroadcastsInDim S2x256 (![] : Fin 0 → Fin S2x256.rank)
  reducesTo_S2x256_S_d0_1 : S2x256.ReducesTo [0, 1] S_

variable [Facts]

def fn_part1 {F : FTy → Type} [FloatOps F] (main_arg4 : FVec F S2x256 .f32) (main_arg5 : FVec F S2x512x256 .f32) (main_arg6 : FVec F S2x256 .f32) (main_v13 : IVec S_ 1) (main_v16 : IVec S2x512x256 1) : IVec S_ 1 :=
  let main_c_5 : IVec S_ 1 := constantI S_ 1 1#1
  let main_v17 : IVec S_ 1 := (fun x v => Host.reduce IntOp.andi x v reducesTo_S2x512x256_S_d0_1_2 h_S_) main_v16 main_c_5
  let main_v18 : IVec S_ 1 := andi main_v13 main_v17
  let main_v19 : FVec F S2x256 .f32 := Host.absf main_arg4
  let main_cst_6 : FVec F S_ .f32 := constant S_ .f32 0x7F800000#32
  let main_v20 : FVec F S2x256 .f32 := broadcastInDim S2x256 ![] bcast_S_S2x256 main_cst_6
  let main_v21 : IVec S2x256 1 := cmpf .olt main_v19 main_v20
  let main_c_7 : IVec S_ 1 := constantI S_ 1 1#1
  let main_v22 : IVec S_ 1 := (fun x v => Host.reduce IntOp.andi x v reducesTo_S2x256_S_d0_1 h_S_) main_v21 main_c_7
  let main_v23 : IVec S_ 1 := andi main_v18 main_v22
  let main_v24 : FVec F S2x512x256 .f32 := Host.absf main_arg5
  let main_cst_8 : FVec F S_ .f32 := constant S_ .f32 0x7F800000#32
  let main_v25 : FVec F S2x512x256 .f32 := broadcastInDim S2x512x256 ![] bcast_S_S2x512x256 main_cst_8
  let main_v26 : IVec S2x512x256 1 := cmpf .olt main_v24 main_v25
  let main_c_9 : IVec S_ 1 := constantI S_ 1 1#1
  let main_v27 : IVec S_ 1 := (fun x v => Host.reduce IntOp.andi x v reducesTo_S2x512x256_S_d0_1_2 h_S_) main_v26 main_c_9
  let main_v28 : IVec S_ 1 := andi main_v23 main_v27
  let main_v29 : FVec F S2x256 .f32 := Host.absf main_arg6
  let main_cst_10 : FVec F S_ .f32 := constant S_ .f32 0x7F800000#32
  let main_v30 : FVec F S2x256 .f32 := broadcastInDim S2x256 ![] bcast_S_S2x256 main_cst_10
  let main_v31 : IVec S2x256 1 := cmpf .olt main_v29 main_v30
  let main_c_11 : IVec S_ 1 := constantI S_ 1 1#1
  let main_v32 : IVec S_ 1 := (fun x v => Host.reduce IntOp.andi x v reducesTo_S2x256_S_d0_1 h_S_) main_v31 main_c_11
  let main_v33 : IVec S_ 1 := andi main_v28 main_v32
  main_v33

def fn {F : FTy → Type} [FloatOps F] (main_arg0 : FVec F S2048x256 .f32) (main_arg1 : FVec F S2x2048x512 .f32) (main_arg2 : FVec F S2x2048x2048 .f32) (main_arg3 : FVec F S2x512x256 .f32) (main_arg4 : FVec F S2x256 .f32) (main_arg5 : FVec F S2x512x256 .f32) (main_arg6 : FVec F S2x256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : IVec S_ 1 := andi main_v3 main_v7
  let main_v9 : FVec F S2x2048x2048 .f32 := Host.absf main_arg2
  let main_cst_2 : FVec F S_ .f32 := constant S_ .f32 0x7F800000#32
  let main_v10 : FVec F S2x2048x2048 .f32 := broadcastInDim S2x2048x2048 ![] bcast_S_S2x2048x2048 main_cst_2
  let main_v11 : IVec S2x2048x2048 1 := cmpf .olt main_v9 main_v10
  let main_c_3 : IVec S_ 1 := constantI S_ 1 1#1
  let main_v12 : IVec S_ 1 := (fun x v => Host.reduce IntOp.andi x v reducesTo_S2x2048x2048_S_d0_1_2 h_S_) main_v11 main_c_3
  let main_v13 : IVec S_ 1 := andi main_v8 main_v12
  let main_v14 : FVec F S2x512x256 .f32 := Host.absf main_arg3
  let main_cst_4 : FVec F S_ .f32 := constant S_ .f32 0x7F800000#32
  let main_v15 : FVec F S2x512x256 .f32 := broadcastInDim S2x512x256 ![] bcast_S_S2x512x256 main_cst_4
  let main_v16 : IVec S2x512x256 1 := cmpf .olt main_v14 main_v15
  fn_part1 (F := F) main_arg4 main_arg5 main_arg6 main_v13 main_v16
-- ==== Kernel.lean ====
abbrev S2048x256 : Shape := ⟨2, ![2048, 256]⟩
abbrev S2x2048x512 : Shape := ⟨3, ![2, 2048, 512]⟩
abbrev S2x2048x2048 : Shape := ⟨3, ![2, 2048, 2048]⟩
abbrev S2x512x256 : Shape := ⟨3, ![2, 512, 256]⟩
abbrev S2x256 : Shape := ⟨2, ![2, 256]⟩
abbrev S512x256 : Shape := ⟨2, ![512, 256]⟩
abbrev S2x512x2048 : Shape := ⟨3, ![2, 512, 2048]⟩
abbrev S1x512x2048 : Shape := ⟨3, ![1, 512, 2048]⟩
abbrev S512x2048 : Shape := ⟨2, ![512, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S1x512x256 : Shape := ⟨3, ![1, 512, 256]⟩
abbrev S1x256 : Shape := ⟨2, ![1, 256]⟩
abbrev S256 : Shape := ⟨1, ![256]⟩
abbrev S1x256x256 : Shape := ⟨3, ![1, 256, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S2048x256, .f32⟩
  | .hbm, ⟨1, _⟩ => ⟨S2x2048x512, .f32⟩
  | .hbm, ⟨2, _⟩ => ⟨S2x2048x2048, .f32⟩
  | .hbm, ⟨3, _⟩ => ⟨S2x512x256, .f32⟩
  | .hbm, ⟨4, _⟩ => ⟨S2x256, .f32⟩
  | .hbm, ⟨5, _⟩ => ⟨S2x512x256, .f32⟩
  | .hbm, ⟨6, _⟩ => ⟨S2x256, .f32⟩
  | .hbm, ⟨7, _⟩ => ⟨S2048x256, .f32⟩
  | .local _ .vmem, ⟨0, _⟩ => ⟨S512x256, .f32⟩
  | .local _ .vmem, ⟨1, _⟩ => ⟨S512x256, .f32⟩
  | .local _ .vmem, ⟨2, _⟩ => ⟨S2x2048x512, .f32⟩
  | .local _ .vmem, ⟨3, _⟩ => ⟨S2x512x2048, .f32⟩
  | .local _ .vmem, ⟨4, _⟩ => ⟨S2x512x2048, .f32⟩
  | .local _ .vmem, ⟨5, _⟩ => ⟨S2x512x256, .f32⟩
  | .local _ .vmem, ⟨6, _⟩ => ⟨S2x256, .f32⟩
  | .local _ .vmem, ⟨7, _⟩ => ⟨S2x512x256, .f32⟩
  | .local _ .vmem, ⟨8, _⟩ => ⟨S2x256, .f32⟩
  | .local _ .vmem, ⟨9, _⟩ => ⟨S512x256, .f32⟩
  | .local _ .vmem, ⟨10, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S512x256_S512x256_0_0 : ∀ a, (![0, 0] : Fin 2 → Nat) a + S512x256.size a ≤ S512x256.size a
  h_S512x256 : 0 < S512x256.numel
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  inb_S2x2048x512_S1x2048x512_0_0_0 : ∀ a, (![0, 0, 0] : Fin 3 → Nat) a + S1x2048x512.size a ≤ S2x2048x512.size a
  h_S1x2048x512 : 0 < S1x2048x512.numel
  shapeCasts_S1x2048x512_S2048x512 : S1x2048x512.ShapeCasts S2048x512
  broadcasts_S512x1_S512x512 : S512x1.Broadcasts S512x512
  inb_S2x512x256_S1x512x256_0_0_0 : ∀ a, (![0, 0, 0] : Fin 3 → Nat) a + S1x512x256.size a ≤ S2x512x256.size a
  h_S1x512x256 : 0 < S1x512x256.numel
  shapeCasts_S1x512x256_S512x256 : S1x512x256.ShapeCasts S512x256
  inb_S2x256_S1x256_0_0 : ∀ a, (![0, 0] : Fin 2 → Nat) a + S1x256.size a ≤ S2x256.size a
  h_S1x256 : 0 < S1x256.numel
  shapeCasts_S1x256_S256 : S1x256.ShapeCasts S256
  shapeCasts_S256_S1x256 : S256.ShapeCasts S1x256
  broadcasts_S1x256_S512x256 : S1x256.Broadcasts S512x256
  inb_S2x512x256_S1x256x256_0_0_0 : ∀ a, (![0, 0, 0] : Fin 3 → Nat) a + S1x256x256.size a ≤ S2x512x256.size a
  h_S1x256x256 : 0 < S1x256x256.numel
  shapeCasts_S1x256x256_S256x256 : S1x256x256.ShapeCasts S256x256
  inb_S2x512x256_S1x256x256_0_256_0 : ∀ a, (![0, 256, 0] : Fin 3 → Nat) a + S1x256x256.size a ≤ S2x512x256.size a
  inb_S2x512x2048_S1x512x2048_1_0_0 : ∀ a, (![1, 0, 0] : Fin 3 → Nat) a + S1x512x2048.size a ≤ S2x512x2048.size a
  inb_S2x2048x512_S1x2048x512_1_0_0 : ∀ a, (![1, 0, 0] : Fin 3 → Nat) a + S1x2048x512.size a ≤ S2x2048x512.size a
  inb_S2x512x256_S1x512x256_1_0_0 : ∀ a, (![1, 0, 0] : Fin 3 → Nat) a + S1x512x256.size a ≤ S2x512x256.size a
  inb_S2x256_S1x256_1_0 : ∀ a, (![1, 0] : Fin 2 → Nat) a + S1x256.size a ≤ S2x256.size a
  inb_S2x512x256_S1x256x256_1_0_0 : ∀ a, (![1, 0, 0] : Fin 3 → Nat) a + S1x256x256.size a ≤ S2x512x256.size a
  inb_S2x512x256_S1x256x256_1_256_0 : ∀ a, (![1, 256, 0] : Fin 3 → Nat) a + S1x256x256.size a ≤ S2x512x256.size a
  dot_S512x2048_S2048x512_S512x512_1_0_0_1_n_n_wf : DotDims.WF S512x2048 S2048x512 S512x512 [1] [0] [0] [1] [] []
  dot_S512x512_S512x256_S512x256_1_0_0_1_n_n_wf : DotDims.WF S512x512 S512x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .f32 = 32 ∨ (Rect.block (s := S2048x256) S512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x2048x512.size a ≤ S2x2048x512.size a
  hwx0_1 : ∀ i : grid0.Coords, EltTy.bits .f32 = 32 ∨ (Rect.block (s := S2x2048x512) S2x2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x2048.size a ≤ S2x2048x2048.size a
  hwx0_2 : ∀ i : grid0.Coords, EltTy.bits .f32 = 32 ∨ (Rect.block (s := S2x2048x2048) S2x512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512x256.size a ≤ S2x512x256.size a
  hwx0_3 : ∀ i : grid0.Coords, EltTy.bits .f32 = 32 ∨ (Rect.block (s := S2x512x256) S2x512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x256.size a ≤ S2x256.size a
  hwx0_4 : ∀ i : grid0.Coords, EltTy.bits .f32 = 32 ∨ (Rect.block (s := S2x256) S2x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x512x256.size a ≤ S2x512x256.size a
  hwx0_5 : ∀ i : grid0.Coords, EltTy.bits .f32 = 32 ∨ (Rect.block (s := S2x512x256) S2x512x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x256.size a ≤ S2x256.size a
  hwx0_6 : ∀ i : grid0.Coords, EltTy.bits .f32 = 32 ∨ (Rect.block (s := S2x256) S2x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S2048x256.size a
  hwx0_7 : ∀ i : grid0.Coords, EltTy.bits .f32 = 32 ∨ (Rect.block (s := S2048x256) S512x256.size (cc0_transform_7 i) (hinb0_7 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x512x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S2x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S2048x256 : Shape := ⟨2, ![2048, 256]⟩
abbrev S2x2048x512 : Shape := ⟨3, ![2, 2048, 512]⟩
abbrev S2x2048x2048 : Shape := ⟨3, ![2, 2048, 2048]⟩
abbrev S2x512x256 : Shape := ⟨3, ![2, 512, 256]⟩
abbrev S2x256 : Shape := ⟨2, ![2, 256]⟩
abbrev S1x2048x2048 : Shape := ⟨3, ![1, 2048, 2048]⟩
abbrev S2048x2048 : Shape := ⟨2, ![2048, 2048]⟩
abbrev S_ : Shape := ⟨0, ![]⟩
abbrev S2048 : Shape := ⟨1, ![2048]⟩
abbrev S2048x1 : Shape := ⟨2, ![2048, 1]⟩
abbrev S1x2048x512 : Shape := ⟨3, ![1, 2048, 512]⟩
abbrev S2048x512 : Shape := ⟨2, ![2048, 512]⟩
abbrev S1x512x256 : Shape := ⟨3, ![1, 512, 256]⟩
abbrev S512x256 : Shape := ⟨2, ![512, 256]⟩
abbrev S1x256 : Shape := ⟨2, ![1, 256]⟩
abbrev S256 : Shape := ⟨1, ![256]⟩

abbrev nBuf : Space → Nat
  | .hbm => 81
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2x2048x512, .f32⟩
  | .hbm, ⟨2, _⟩ => ⟨S2x2048x2048, .f32⟩
  | .hbm, ⟨3, _⟩ => ⟨S2x512x256, .f32⟩
  | .hbm, ⟨4, _⟩ => ⟨S2x256, .f32⟩
  | .hbm, ⟨5, _⟩ => ⟨S2x512x256, .f32⟩
  | .hbm, ⟨6, _⟩ => ⟨S2x256, .f32⟩
  | .hbm, ⟨7, _⟩ => ⟨S1x2048x2048, .f32⟩
  | .hbm, ⟨8, _⟩ => ⟨S2048x2048, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S1x2048x512, .f32⟩
  | .hbm, ⟨17, _⟩ => ⟨S2048x512, .f32⟩
  | .hbm, ⟨18, _⟩ => ⟨S2048x512, .f32⟩
  | .hbm, ⟨19, _⟩ => ⟨S2048x512, .f32⟩
  | .hbm, ⟨20, _⟩ => ⟨S2048x512, .f32⟩
  | .hbm, ⟨21, _⟩ => ⟨S1x512x256, .f32⟩
  | .hbm, ⟨22, _⟩ => ⟨S512x256, .f32⟩
  | .hbm, ⟨23, _⟩ => ⟨S2048x256, .f32⟩
  | .hbm, ⟨24, _⟩ => ⟨S1x256, .f32⟩
  | .hbm, ⟨25, _⟩ => ⟨S256, .f32⟩
  | .hbm, ⟨26, _⟩ => ⟨S1x256, .f32⟩
  | .hbm, ⟨27, _⟩ => ⟨S2048x256, .f32⟩
  | .hbm, ⟨28, _⟩ => ⟨S2048x256, .f32⟩
  | .hbm, ⟨29, _⟩ => ⟨S_, .f32⟩
  | .hbm, ⟨30, _⟩ => ⟨S2048x256, .f32⟩
  | .hbm, ⟨31, _⟩ => ⟨S2048x256, .f32⟩
  | .hbm, ⟨32, _⟩ => ⟨S2048x512, .f32⟩
  | .hbm, ⟨33, _⟩ => ⟨S1x512x256, .f32⟩
  | .hbm, ⟨34, _⟩ => ⟨S512x256, .f32⟩
  | .hbm, ⟨35, _⟩ => ⟨S2048x256, .f32⟩
  | .hbm, ⟨36, _⟩ => ⟨S1x256, .f32⟩
  | .hbm, ⟨37, _⟩ => ⟨S256, .f32⟩
  | .hbm, ⟨38, _⟩ => ⟨S1x256, .f32⟩
  | .hbm, ⟨39, _⟩ => ⟨S2048x256, .f32⟩
  | .hbm, ⟨40, _⟩ => ⟨S2048x256, .f32⟩
  | .hbm, ⟨41, _⟩ => ⟨S_, .f32⟩
  | .hbm, ⟨42, _⟩ => ⟨S2048x256, .f32⟩
  | .hbm, ⟨43, _⟩ => ⟨S2048x256, .f32⟩
  | .hbm, ⟨44, _⟩ => ⟨S1x2048x2048, .f32⟩
  | .hbm, ⟨45, _⟩ => ⟨S2048x2048, .f32⟩
  | .hbm, ⟨46, _⟩ => ⟨S_, .f32⟩
  | .hbm, ⟨47, _⟩ => ⟨S2048, .f32⟩
  | .hbm, ⟨48, _⟩ => ⟨S2048x1, .f32⟩
  | .hbm, ⟨49, _⟩ => ⟨S_, .f32⟩
  | .hbm, ⟨50, _⟩ => ⟨S_, .f32⟩
  | .hbm, ⟨51, _⟩ => ⟨S2048x1, .f32⟩
  | .hbm, ⟨52, _⟩ => ⟨S2048x1, .f32⟩
  | .hbm, ⟨53, _⟩ => ⟨S1x2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S1x512x256, .f32⟩
  | .hbm, ⟨59, _⟩ => ⟨S512x256, .f32⟩
  | .hbm, ⟨60, _⟩ => ⟨S2048x256, .f32⟩
  | .hbm, ⟨61, _⟩ => ⟨S1x256, .f32⟩
  | .hbm, ⟨62, _⟩ => ⟨S256, .f32⟩
  | .hbm, ⟨63, _⟩ => ⟨S1x256, .f32⟩
  | .hbm, ⟨64, _⟩ => ⟨S2048x256, .f32⟩
  | .hbm, ⟨65, _⟩ => ⟨S2048x256, .f32⟩
  | .hbm, ⟨66, _⟩ => ⟨S_, .f32⟩
  | .hbm, ⟨67, _⟩ => ⟨S2048x256, .f32⟩
  | .hbm, ⟨68, _⟩ => ⟨S2048x256, .f32⟩
  | .hbm, ⟨69, _⟩ => ⟨S2048x512, .f32⟩
  | .hbm, ⟨70, _⟩ => ⟨S1x512x256, .f32⟩
  | .hbm, ⟨71, _⟩ => ⟨S512x256, .f32⟩
  | .hbm, ⟨72, _⟩ => ⟨S2048x256, .f32⟩
  | .hbm, ⟨73, _⟩ => ⟨S1x256, .f32⟩
  | .hbm, ⟨74, _⟩ => ⟨S256, .f32⟩
  | .hbm, ⟨75, _⟩ => ⟨S1x256, .f32⟩
  | .hbm, ⟨76, _⟩ => ⟨S2048x256, .f32⟩
  | .hbm, ⟨77, _⟩ => ⟨S2048x256, .f32⟩
  | .hbm, ⟨78, _⟩ => ⟨S_, .f32⟩
  | .hbm, ⟨79, _⟩ => ⟨S2048x256, .f32⟩
  | .hbm, ⟨80, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call1_cst : Ref sig .tc := ⟨.hbm, 29, rfl⟩
abbrev main_call1_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call2_cst : Ref sig .tc := ⟨.hbm, 41, rfl⟩
abbrev main_call2_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_1 : Ref sig .tc := ⟨.hbm, 46, rfl⟩
abbrev main_v31 : Ref sig .tc := ⟨.hbm, 47, rfl⟩
abbrev main_v32 : Ref sig .tc := ⟨.hbm, 48, rfl⟩
abbrev main_cst_2 : Ref sig .tc := ⟨.hbm, 49, rfl⟩
abbrev main_call3_v0 : Ref sig .tc := ⟨.hbm, 50, rfl⟩
abbrev main_call3_v1 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call4_cst : Ref sig .tc := ⟨.hbm, 66, rfl⟩
abbrev main_call4_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call5_cst : Ref sig .tc := ⟨.hbm, 78, rfl⟩
abbrev main_call5_v0 : Ref sig .tc := ⟨.hbm, 79, rfl⟩
abbrev main_v57 : Ref sig .tc := ⟨.hbm, 80, rfl⟩

abbrev nD : Nat := 1
abbrev τ : Topo := Topo.v7x

variable {F : FTy → Type} [FloatOps F]

class Facts₀ : Prop where
  slices_S2x2048x2048_S1x2048x2048_0_0_0 : S2x2048x2048.Slices ![0, 0, 0] S1x2048x2048
  shapeCasts_S1x2048x2048_S2048x2048 : S1x2048x2048.ShapeCasts S2048x2048
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  slices_S2x2048x512_S1x2048x512_0_0_0 : S2x2048x512.Slices ![0, 0, 0] S1x2048x512
  shapeCasts_S1x2048x512_S2048x512 : S1x2048x512.ShapeCasts S2048x512
  bcast_S2048x1_S2048x512_0_1 : S2048x1.BroadcastsInDim S2048x512 (![0, 1] : Fin 2 → Fin S2048x512.rank)
  slices_S2x512x256_S1x512x256_0_0_0 : S2x512x256.Slices ![0, 0, 0] S1x512x256
  shapeCasts_S1x512x256_S512x256 : S1x512x256.ShapeCasts S512x256
  slices_S2x256_S1x256_0_0 : S2x256.Slices ![0, 0] S1x256
  shapeCasts_S1x256_S256 : S1x256.ShapeCasts S256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  concatenates_S2048x256_S2048x256_S2048x512_d1 : Shape.Concatenates [S2048x256, S2048x256] S2048x512 1
  slices_S2x2048x2048_S1x2048x2048_1_0_0 : S2x2048x2048.Slices ![1, 0, 0] S1x2048x2048
  slices_S2x2048x512_S1x2048x512_1_0_0 : S2x2048x512.Slices ![1, 0, 0] S1x2048x512
  slices_S2x512x256_S1x512x256_1_0_0 : S2x512x256.Slices ![1, 0, 0] S1x512x256
  slices_S2x256_S1x256_1_0 : S2x256.Slices ![1, 0] S1x256
  dot_S2048x2048_S2048x512_S2048x512_1_0_0_1_n_n_wf : DotDims.WF S2048x2048 S2048x512 S2048x512 [1] [0] [0] [1] [] []
  dot_S2048x512_S512x256_S2048x256_1_0_0_1_n_n_wf : DotDims.WF S2048x512 S512x256 S2048x256 [1] [0] [0] [1] [] []

variable [Facts₀]

def dot_S2048x2048_S2048x512_S2048x512_1_0_0_1_n_n : DotDims S2048x2048 S2048x512 S2048x512 where
  lhsContracting := [1]
  rhsContracting := [0]
  lhsNonContracting := [0]
  rhsNonContracting := [1]
  lhsBatch := []
  rhsBatch := []
  wf := dot_S2048x2048_S2048x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

class Facts : Prop extends Facts₀ where

variable [Facts]
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«153416_g40089224740916_retrytranche2_1659_10_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.Step.lean ====
/- One depth step of the message passing over plain matrices of extended reals, for any number of agents' rows:
   deg r = max c (Σ_j A(r, j)); agg = (A a) / deg; emb = max (agg W + b) z; new state = max (emb U_top + h U_bot + d) z.
   The step is row-local, so it commutes with taking a block of rows; and a product with two matrices set side by
   side is the sum of the two products. The network is two such steps. -/
import Idealize.ShloMosaic.Lib.ValueIdx
import Idealize.ShloMosaic.PureOps.Ideal.Laws
import proofs.«153416_g40089224740916_retrytranche2_1659_10_alg».proof.Proof.LibMatProd

noncomputable section

open scoped BigOperators

namespace Cert.Dhgn

open Idealize.ShloMosaic Idealize.ShloMosaic.ValueIdx Cert.MatProd

/-- An m x n matrix of extended reals, indexed as a rank-2 array. -/
abbrev Mat (m n : Nat) := (⟨2, ![m, n]⟩ : Shape).Idx → EReal

/-- A stack of two r x c matrices. -/
abbrev Stack (r c : Nat) := (⟨3, ![2, r, c]⟩ : Shape).Idx → EReal

/-- The floor of both rectifications: the word of 0.0. -/
abbrev zf : EReal := Ideal.ofBits .f32 0x00000000#32

/-- The degree's lower clamp: the word both programs carry for 1e-6. -/
abbrev cf : EReal := Ideal.ofBits .f32 0x358637BD#32

/-- Matrix k of a stack. -/
def plane {r c : Nat} (k : Fin 2) (X : Stack r c) : Mat r c := fun i => X (ix3 k (i 0) (i 1))

/-- Row k of a two-row matrix, as a function of the column. -/
def rowOf {n : Nat} (k : Fin 2) (b : Mat 2 n) : Fin n → EReal := fun q => b (ix2 k q)

/-- Rows o, …, o + m - 1 of a matrix. -/
def rowBlock {M n : Nat} (m o : Nat) (h : o + m ≤ M) (X : Mat M n) : Mat m n :=
  fun i => X (ix2 ⟨o + (i 0).val, by have := idx2_lt0 i; omega⟩ (i 1))

/-- The first p rows of a matrix of p + q rows. -/
def topRows {p q n : Nat} (U : Mat (p + q) n) : Mat p n := fun i => U (ix2 (Fin.castAdd q (i 0)) (i 1))

/-- Its last q rows. -/
def botRows {p q n : Nat} (U : Mat (p + q) n) : Mat q n := fun i => U (ix2 (Fin.natAdd p (i 0)) (i 1))

/-- A matrix plus a row added to each of its rows, floored at z. -/
def biasRelu {m n : Nat} (z : EReal) (v : Mat m n) (b : Fin n → EReal) : Mat m n := fun i => max (v i + b (i 1)) z

/-- The degree of agent r: its adjacency row's sum, clamped below by c. -/
def degOf {m K : Nat} (c : EReal) (A : Mat m K) (r : Fin m) : EReal := max c (∑ j : Fin K, A (ix2 r j))

/-- Mean aggregation of the neighbours' messages: (A a)(r, p) / deg r. -/
def aggOf {m K P : Nat} (c : EReal) (A : Mat m K) (a : Mat K P) : Mat m P :=
  fun i => Ideal.div (matProd A a i) (degOf c A (i 0))

/-- The embedding: the aggregate through a linear layer, floored at z. -/
def embOf {m K P Q : Nat} (z c : EReal) (A : Mat m K) (a : Mat K P) (W : Mat P Q) (b : Fin Q → EReal) : Mat m Q :=
  fun i => max (matProd (aggOf c A a) W i + b (i 1)) z

/-- The embedding through the top rows of the second layer's weights plus the state through the bottom rows. -/
def mixOf {m K P Q : Nat} (z c : EReal) (A : Mat m K) (a : Mat K P) (W : Mat P Q) (b : Fin Q → EReal)
    (Ut Ub : Mat Q Q) (h : Mat m Q) : Mat m Q :=
  fun i => matProd (embOf z c A a W b) Ut i + matProd h Ub i

/-- One depth step: the new state of every agent from its adjacency row, the messages and its old state. -/
def stepOf {m K P Q : Nat} (z c : EReal) (A : Mat m K) (a : Mat K P) (W : Mat P Q) (b : Fin Q → EReal)
    (Ut Ub : Mat Q Q) (d : Fin Q → EReal) (h : Mat m Q) : Mat m Q :=
  fun i => max (mixOf z c A a W b Ut Ub h i + d (i 1)) z

/-- The step is row-local: on a block of rows of the adjacency and of the state it gives that block of rows of
    the step on the whole matrices. -/
theorem stepOf_rowBlock {M K P Q : Nat} (m o : Nat) (hm : o + m ≤ M) (z c : EReal) (A : Mat M K) (a : Mat K P)
    (W : Mat P Q) (b : Fin Q → EReal) (Ut Ub : Mat Q Q) (d : Fin Q → EReal) (h : Mat M Q) :
    stepOf z c (rowBlock m o hm A) a W b Ut Ub d (rowBlock m o hm h)
      = rowBlock m o hm (stepOf z c A a W b Ut Ub d h) := by
  funext i
  rfl

/-- A product whose left factor is two matrices side by side splits into the two products over the matching rows
    of the right factor: a sum over p + q terms is the sum of its first p and of its last q. -/
theorem matProd_sideBySide {m p q n : Nat} (e : Mat m p) (h : Mat m q) (U : Mat (p + q) n) (cat : Mat m (p + q))
    (hl : ∀ (r : Fin m) (j : Fin p), cat (ix2 r (Fin.castAdd q j)) = e (ix2 r j))
    (hr : ∀ (r : Fin m) (j : Fin q), cat (ix2 r (Fin.natAdd p j)) = h (ix2 r j)) (i : (⟨2, ![m, n]⟩ : Shape).Idx) :
    matProd cat U i = matProd e (topRows U) i + matProd h (botRows U) i := by
  obtain ⟨r, s, rfl⟩ : ∃ (r : Fin m) (s : Fin n), i = ix2 r s := ⟨i 0, i 1, eq_ix2 i⟩
  rw [matProd_ix2, matProd_ix2, matProd_ix2, Fin.sum_univ_add]
  refine congrArg₂ (· + ·) (Finset.sum_congr rfl fun j _ => ?_) (Finset.sum_congr rfl fun j _ => ?_)
  · rw [hl]; rfl
  · rw [hr]; rfl

/-- Rows o, …, o + m - 1 of both matrices of a stack. -/
def rowBlockS {M n : Nat} (m o : Nat) (h : o + m ≤ M) (X : Stack M n) : Stack m n :=
  fun i => X (ix3 (i 0) ⟨o + (i 1).val, by have : (i 1).val < m := (i 1).isLt; omega⟩ (i 2))

/-- The two depth steps, for any number M of agents' rows of the state and of the adjacency. -/
def net {M : Nat} (z c : EReal) (h0 : Mat M 256) (a : Stack 2048 512) (adj : Stack M 2048) (Wa : Stack 512 256)
    (ba : Mat 2 256) (Wf : Stack 512 256) (bf : Mat 2 256) : Mat M 256 :=
  stepOf z c (plane 1 adj) (plane 1 a) (plane 1 Wa) (rowOf 1 ba)
      (topRows (p := 256) (q := 256) (plane 1 Wf)) (botRows (p := 256) (q := 256) (plane 1 Wf)) (rowOf 1 bf)
    (stepOf z c (plane 0 adj) (plane 0 a) (plane 0 Wa) (rowOf 0 ba)
      (topRows (p := 256) (q := 256) (plane 0 Wf)) (botRows (p := 256) (q := 256) (plane 0 Wf)) (rowOf 0 bf) h0)

/-- Both steps being row-local, the network on a block of rows of the state and of the adjacency is that block
    of rows of the network on the whole arrays. -/
theorem net_rowBlock {M : Nat} (m o : Nat) (hm : o + m ≤ M) (z c : EReal) (h0 : Mat M 256) (a : Stack 2048 512)
    (adj : Stack M 2048) (Wa : Stack 512 256) (ba : Mat 2 256) (Wf : Stack 512 256) (bf : Mat 2 256) :
    net z c (rowBlock m o hm h0) a (rowBlockS m o hm adj) Wa ba Wf bf
      = rowBlock m o hm (net z c h0 a adj Wa ba Wf bf) := by
  funext i
  rfl

end Cert.Dhgn

end
-- ==== Proof.Layout.lean ====
/- Whole-array readings of the layout operations the two programs use: a leading unit axis dropped, a row or a
   column broadcast over a matrix, a sum along the rows, and a load through a rectangle of unit steps read at the
   array index under it. -/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dhgn.Layout

open Idealize.ShloMosaic Idealize.ShloMosaic.ValueIdx

variable {α : Type}

/-- A [1, r, c] array cast to [r, c] is the array at (0, i, j). -/
theorem squeeze_eq {r c : ℕ} (v : (⟨3, ![1, r, c]⟩ : Shape).Idx → α)
    (h : (⟨3, ![1, r, c]⟩ : Shape).ShapeCasts ⟨2, ![r, c]⟩) :
    shapeCast ⟨2, ![r, c]⟩ v h = fun i => v (ix3 (0 : Fin 1) (i 0) (i 1)) := by
  funext i
  obtain ⟨a, b, rfl⟩ : ∃ (a : Fin r) (b : Fin c), i = ix2 a b := ⟨i 0, i 1, eq_ix2 i⟩
  exact shapeCast_1ab_ab_apply v h a b

/-- A [1, n] array cast to [n] is its one row. -/
theorem unrow_eq {n : ℕ} (v : (⟨2, ![1, n]⟩ : Shape).Idx → α) (h : (⟨2, ![1, n]⟩ : Shape).ShapeCasts ⟨1, ![n]⟩) :
    shapeCast ⟨1, ![n]⟩ v h = fun j => v (ix2 (0 : Fin 1) (j 0)) := by
  funext j
  obtain ⟨a, rfl⟩ : ∃ a : Fin n, j = ix1 a := ⟨j 0, eq_ix1 j⟩
  exact shapeCast_1a_a_apply v h a

/-- An [n] array made a row and broadcast over m rows reads the array at the column. -/
theorem rowBroadcast_eq {m n : ℕ} (w : (⟨1, ![n]⟩ : Shape).Idx → α)
    (h2 : (⟨1, ![n]⟩ : Shape).ShapeCasts ⟨2, ![1, n]⟩) (h3 : (⟨2, ![1, n]⟩ : Shape).Broadcasts ⟨2, ![m, n]⟩) :
    broadcastTo ⟨2, ![m, n]⟩ (shapeCast ⟨2, ![1, n]⟩ w h2) h3 = fun i => w (ix1 (i 1)) := by
  funext i
  obtain ⟨a, b, rfl⟩ : ∃ (a : Fin m) (b : Fin n), i = ix2 a b := ⟨i 0, i 1, eq_ix2 i⟩
  rw [broadcastTo_1b_ab_apply, shapeCast_a_1a_apply]
  rfl

/-- An [m] array cast to a column [m, 1] reads the array at the row. -/
theorem column_eq {m : ℕ} (v : (⟨1, ![m]⟩ : Shape).Idx → α) (h : (⟨1, ![m]⟩ : Shape).ShapeCasts ⟨2, ![m, 1]⟩) :
    shapeCast ⟨2, ![m, 1]⟩ v h = fun i => v (ix1 (i 0)) := by
  funext i
  refine shapeCast_apply v h i (ix1 (i 0)) ?_
  rw [Shape.rowMajor_val_one, Shape.rowMajor_val_two]
  have h1 : (i 1).val < 1 := idx2_lt1 i
  show (i 0).val = (i 0).val * 1 + (i 1).val
  omega

/-- A column [m, 1] broadcast over n columns reads the column at the row. -/
theorem columnBroadcast_eq {m n : ℕ} (w : (⟨2, ![m, 1]⟩ : Shape).Idx → α)
    (h : (⟨2, ![m, 1]⟩ : Shape).Broadcasts ⟨2, ![m, n]⟩) :
    broadcastTo ⟨2, ![m, n]⟩ w h = fun i => w (ix2 (i 0) (0 : Fin 1)) := by
  funext i
  refine broadcastTo_apply w h i (ix2 (i 0) (0 : Fin 1)) fun ax => ?_
  match ax with
  | ⟨0, _⟩ =>
    show (i 0).val = if m = 1 then 0 else (i 0).val
    split
    · have := idx2_lt0 i; omega
    · rfl
  | ⟨1, _⟩ => rfl

/-- A sum along the rows of an [m, K] array of extended reals, from the zero word: the plain sum of each row. -/
theorem rowSum_eq {m K : ℕ} (A : FVec Ideal ⟨2, ![m, K]⟩ .f32) (acc : BitVec 32)
    (h : (⟨2, ![m, K]⟩ : Shape).Reduces [1] ⟨1, ![m]⟩) (hφ : FKind.Formats .f32) (hacc : acc = FKind.add.neutral .f32 hφ) :
    multiReduction .add [1] ⟨1, ![m]⟩ A acc h hφ hacc = fun j => ∑ k : Fin K, A (ix2 (j 0) k) := by
  funext j
  refine (Ideal.multiReduction_add_single A acc h hφ hacc j).trans ?_
  exact Finset.sum_congr rfl fun k _ => congrArg A (funext fun a => Fin.ext (by
    match a with
    | ⟨0, _⟩ => rfl
    | ⟨1, _⟩ => rfl))

/-- A load through a rectangle of unit steps that takes one matrix's rows s1 x s2 out of a stack, at (0, a, b):
    the stack at the index the offsets place it at. -/
theorem ld_unit3 {Val : EltTy → Type} {e : EltTy} {n0 n1 n2 s1 s2 : ℕ} (X : (⟨3, ![n0, n1, n2]⟩ : Shape).Idx → Val e) (off : Fin 3 → ℕ)
    (inb : ∀ a, off a + (![1, s1, s2] : Fin 3 → ℕ) a ≤ (⟨3, ![n0, n1, n2]⟩ : Shape).size a)
    (a : Fin s1) (b : Fin s2) (j : (⟨3, ![n0, n1, n2]⟩ : Shape).Idx)
    (h0 : (j 0).val = off 0) (h1 : (j 1).val = off 1 + a.val) (h2 : (j 2).val = off 2 + b.val) :
    View.ld X (Rect.unit (s := ⟨3, ![n0, n1, n2]⟩) off ![1, s1, s2] inb) (ix3 (0 : Fin 1) a b) = X j := by
  show X _ = X j
  refine congrArg X (funext fun ax => Fin.ext ?_)
  match ax with
  | ⟨0, _⟩ => show off 0 + 1 * 0 = (j 0).val; omega
  | ⟨1, _⟩ => show off 1 + 1 * a.val = (j 1).val; omega
  | ⟨2, _⟩ => show off 2 + 1 * b.val = (j 2).val; omega

/-- The same for one row of s2 entries out of a matrix, at (0, b). -/
theorem ld_unit2 {Val : EltTy → Type} {e : EltTy} {n0 n1 s2 : ℕ} (X : (⟨2, ![n0, n1]⟩ : Shape).Idx → Val e) (off : Fin 2 → ℕ)
    (inb : ∀ a, off a + (![1, s2] : Fin 2 → ℕ) a ≤ (⟨2, ![n0, n1]⟩ : Shape).size a)
    (b : Fin s2) (j : (⟨2, ![n0, n1]⟩ : Shape).Idx)
    (h0 : (j 0).val = off 0) (h1 : (j 1).val = off 1 + b.val) :
    View.ld X (Rect.unit (s := ⟨2, ![n0, n1]⟩) off ![1, s2] inb) (ix2 (0 : Fin 1) b) = X j := by
  show X _ = X j
  refine congrArg X (funext fun ax => Fin.ext ?_)
  match ax with
  | ⟨0, _⟩ => show off 0 + 1 * 0 = (j 0).val; omega
  | ⟨1, _⟩ => show off 1 + 1 * b.val = (j 1).val; omega

end Cert.Dhgn.Layout

end
-- ==== Proof.KernelBlock.lean ====
/- What one grid point of the kernel leaves in its output block, as the two depth steps on the blocks it was
   given: each of the body's matrix products into a zero accumulator is the textbook product, each lane sum a row's
   sum, each cast or broadcast a re-indexing; the body's loads take matrix k of each stack (for the second layer's
   weights, its top and its bottom 256 rows). -/
import proofs.«153416_g40089224740916_retrytranche2_1659_10_alg».proof.Proof.Gen.KernelIdeal.Frame
import proofs.«153416_g40089224740916_retrytranche2_1659_10_alg».proof.Proof.Step
import proofs.«153416_g40089224740916_retrytranche2_1659_10_alg».proof.Proof.Layout

noncomputable section

open scoped BigOperators

namespace Cert.Dhgn.KernelSide

open Cert.KernelIdeal Cert.KernelIdeal.Gen Idealize.ShloMosaic Idealize.ShloMosaic.ValueIdx Cert.MatProd Cert.Dhgn
  Cert.Dhgn.Layout

/-- A [1, r, c] array as the r x c matrix it holds. -/
abbrev sq {r c : ℕ} (v : (⟨3, ![1, r, c]⟩ : Shape).Idx → EReal) : Mat r c := fun i => v (ix3 (0 : Fin 1) (i 0) (i 1))

/-- A [1, n] array as a function of the column. -/
abbrev row0 {n : ℕ} (v : (⟨2, ![1, n]⟩ : Shape).Idx → EReal) : Fin n → EReal := fun q => v (ix2 (0 : Fin 1) q)

theorem hz2 : (![0, 0] : Fin 2 → Nat) = fun _ => 0 := funext fun a => by
  match a with
  | ⟨0, _⟩ => rfl
  | ⟨1, _⟩ => rfl

/-! ## The three products -/

theorem prodA (X : FVec Ideal S512x2048 .f32) (Y : FVec Ideal S2048x512 .f32) :
    matmul dot_S512x2048_S2048x512_S512x512_1_0_0_1_n_n none X Y (constant S512x512 .f32 0x00000000#32) = matProd X Y :=
  matmulZero_eq Facts₀.dot_S512x2048_S2048x512_S512x512_1_0_0_1_n_n_wf none X Y

theorem prodB (X : FVec Ideal S512x512 .f32) (Y : FVec Ideal S512x256 .f32) :
    matmul dot_S512x512_S512x256_S512x256_1_0_0_1_n_n none X Y (constant S512x256 .f32 0x00000000#32) = matProd X Y :=
  matmulZero_eq Facts₀.dot_S512x512_S512x256_S512x256_1_0_0_1_n_n_wf none X Y

theorem prodC (X : FVec Ideal S512x256 .f32) (Y : FVec Ideal S256x256 .f32) :
    matmul dot_S512x256_S256x256_S512x256_1_0_0_1_n_n none X Y (constant S512x256 .f32 0x00000000#32) = matProd X Y :=
  matmulZero_eq Facts₀.dot_S512x256_S256x256_S512x256_1_0_0_1_n_n_wf none X Y

/-! ## The degree, broadcast over the aggregate's columns -/

theorem deg_eq (A : FVec Ideal S512x2048 .f32) :
    broadcastTo S512x512 (maximumf (broadcast S512x1 (Scalar.ofBits .f32 0x358637BD#32))
        (shapeCast S512x1 (multiReduction .add [1] S512 A 0x00000000#32 reduces_S512x2048_S512 (.inl rfl) rfl) shapeCasts_S512_S512x1))
        broadcasts_S512x1_S512x512
      = fun i => degOf cf A (i 0) := by
  refine (columnBroadcast_eq _ _).trans ?_
  funext i
  exact congrArg (max cf) ((congrFun (column_eq _ _) _).trans (congrFun (rowSum_eq A _ _ _ _) _))

/-! ## The accumulator of one depth step, before its bias -/

theorem mix_eq (h : FVec Ideal S512x256 .f32) (A1 : FVec Ideal S1x512x2048 .f32) (a1 : FVec Ideal S1x2048x512 .f32)
    (W1 : FVec Ideal S1x512x256 .f32) (b1 : FVec Ideal S256 .f32) (Ut1 Ub1 : FVec Ideal S1x256x256 .f32) :
    addf (matmul dot_S512x256_S256x256_S512x256_1_0_0_1_n_n none
        (maximumf (addf (matmul dot_S512x512_S512x256_S512x256_1_0_0_1_n_n none
            (divf (matmul dot_S512x2048_S2048x512_S512x512_1_0_0_1_n_n none (shapeCast S512x2048 A1 shapeCasts_S1x512x2048_S512x2048)
                (shapeCast S2048x512 a1 shapeCasts_S1x2048x512_S2048x512) (constant S512x512 .f32 0x00000000#32))
              (broadcastTo S512x512 (maximumf (broadcast S512x1 (Scalar.ofBits .f32 0x358637BD#32))
                (shapeCast S512x1 (multiReduction .add [1] S512 (shapeCast S512x2048 A1 shapeCasts_S1x512x2048_S512x2048) 0x00000000#32
                  reduces_S512x2048_S512 (.inl rfl) rfl) shapeCasts_S512_S512x1)) broadcasts_S512x1_S512x512))
            (shapeCast S512x256 W1 shapeCasts_S1x512x256_S512x256) (constant S512x256 .f32 0x00000000#32))
          (broadcastTo S512x256 (shapeCast S1x256 b1 shapeCasts_S256_S1x256) broadcasts_S1x256_S512x256))
          (broadcast S512x256 (Scalar.ofBits .f32 0x00000000#32)))
        (shapeCast S256x256 Ut1 shapeCasts_S1x256x256_S256x256) (constant S512x256 .f32 0x00000000#32))
      (matmul dot_S512x256_S256x256_S512x256_1_0_0_1_n_n none h (shapeCast S256x256 Ub1 shapeCasts_S1x256x256_S256x256)
        (constant S512x256 .f32 0x00000000#32))
      = mixOf zf cf (sq A1) (sq a1) (sq W1) (fun q => b1 (ix1 q)) (sq Ut1) (sq Ub1) h := by
  rw [squeeze_eq A1, squeeze_eq a1, squeeze_eq W1, squeeze_eq Ut1, squeeze_eq Ub1, deg_eq, rowBroadcast_eq,
    prodA, prodB, prodC, prodC]
  rfl

/-! ## The body's four payloads -/

theorem pay2_eq (v0 : FVec Ideal S512x256 .f32) (v1 : FVec Ideal S1x512x2048 .f32) (v7 : FVec Ideal S1x2048x512 .f32)
    (v12 : FVec Ideal S1x512x256 .f32) (v15 : FVec Ideal S1x256 .f32) (v22 v25 : FVec Ideal S1x256x256 .f32) :
    k0_pay2 (F := Ideal) v0 v1 v7 v12 v15 v22 v25 = mixOf zf cf (sq v1) (sq v7) (sq v12) (row0 v15) (sq v22) (sq v25) v0 := by
  refine (mix_eq v0 v1 v7 v12 (shapeCast S256 v15 shapeCasts_S1x256_S256) v22 v25).trans ?_
  rw [unrow_eq]

theorem pay3_eq (v29 : FVec Ideal S1x256 .f32) : (fun q : Fin 256 => k0_pay3 (F := Ideal) v29 (ix1 q)) = row0 v29 := by
  funext q
  exact shapeCast_1a_a_apply v29 shapeCasts_S1x256_S256 q

theorem pay4_eq (v28 : FVec Ideal S512x256 .f32) (v30 : FVec Ideal S256 .f32) (v36 : FVec Ideal S1x512x2048 .f32)
    (v42 : FVec Ideal S1x2048x512 .f32) (v47 : FVec Ideal S1x512x256 .f32) (v50 : FVec Ideal S1x256 .f32)
    (v57 v60 : FVec Ideal S1x256x256 .f32) :
    k0_pay4 (F := Ideal) v28 v30 v36 v42 v47 v50 v57 v60
      = mixOf zf cf (sq v36) (sq v42) (sq v47) (row0 v50) (sq v57) (sq v60) (biasRelu zf v28 (fun q => v30 (ix1 q))) := by
  refine (mix_eq (maximumf (addf v28 (broadcastTo S512x256 (shapeCast S1x256 v30 shapeCasts_S256_S1x256) broadcasts_S1x256_S512x256))
      (broadcast S512x256 (Scalar.ofBits .f32 0x00000000#32))) v36 v42 v47 (shapeCast S256 v50 shapeCasts_S1x256_S256) v57 v60).trans ?_
  rw [unrow_eq, rowBroadcast_eq]
  rfl

theorem pay1_eq (v63 : FVec Ideal S512x256 .f32) (v64 : FVec Ideal S1x256 .f32) :
    k0_pay1 (F := Ideal) v63 v64 = biasRelu zf v63 (row0 v64) := by
  refine (show k0_pay1 (F := Ideal) v63 v64 = maximumf (addf v63 (broadcastTo S512x256 (shapeCast S1x256 (shapeCast S256 v64
      shapeCasts_S1x256_S256) shapeCasts_S256_S1x256) broadcasts_S1x256_S512x256))
      (broadcast S512x256 (Scalar.ofBits .f32 0x00000000#32)) from rfl).trans ?_
  rw [unrow_eq, rowBroadcast_eq]
  rfl

/-! ## The body's loads: matrix k of each stack -/

theorem ld_h (x0 : Vec Ideal S512x256 .f32) : View.ld x0 r0_0 = x0 := View.ld_unit_zero hz2 _ x0

theorem ld_adj0 (x2 : Vec Ideal S2x512x2048 .f32) : sq (View.ld x2 r0_1) = plane 0 x2 := by
  funext i
  exact ld_unit3 x2 _ _ (i 0) (i 1) (ix3 (0 : Fin 2) (i 0) (i 1)) rfl (Nat.zero_add _).symm (Nat.zero_add _).symm

theorem ld_adj1 (x2 : Vec Ideal S2x512x2048 .f32) : sq (View.ld x2 r0_7) = plane 1 x2 := by
  funext i
  exact ld_unit3 x2 _ _ (i 0) (i 1) (ix3 (1 : Fin 2) (i 0) (i 1)) rfl (Nat.zero_add _).symm (Nat.zero_add _).symm

theorem ld_a0 (x1 : Vec Ideal S2x2048x512 .f32) : sq (View.ld x1 r0_2) = plane 0 x1 := by
  funext i
  exact ld_unit3 x1 _ _ (i 0) (i 1) (ix3 (0 : Fin 2) (i 0) (i 1)) rfl (Nat.zero_add _).symm (Nat.zero_add _).symm

theorem ld_a1 (x1 : Vec Ideal S2x2048x512 .f32) : sq (View.ld x1 r0_8) = plane 1 x1 := by
  funext i
  exact ld_unit3 x1 _ _ (i 0) (i 1) (ix3 (1 : Fin 2) (i 0) (i 1)) rfl (Nat.zero_add _).symm (Nat.zero_add _).symm

theorem ld_W0 (x3 : Vec Ideal S2x512x256 .f32) : sq (View.ld x3 r0_3) = plane 0 x3 := by
  funext i
  exact ld_unit3 x3 _ _ (i 0) (i 1) (ix3 (0 : Fin 2) (i 0) (i 1)) rfl (Nat.zero_add _).symm (Nat.zero_add _).symm

theorem ld_W1 (x3 : Vec Ideal S2x512x256 .f32) : sq (View.ld x3 r0_9) = plane 1 x3 := by
  funext i
  exact ld_unit3 x3 _ _ (i 0) (i 1) (ix3 (1 : Fin 2) (i 0) (i 1)) rfl (Nat.zero_add _).symm (Nat.zero_add _).symm

theorem ld_top0 (x5 : Vec Ideal S2x512x256 .f32) : sq (View.ld x5 r0_5) = topRows (p := 256) (q := 256) (plane 0 x5) := by
  funext i
  exact ld_unit3 x5 _ _ (i 0) (i 1) (ix3 (0 : Fin 2) (Fin.castAdd 256 (i 0)) (i 1)) rfl (Nat.zero_add _).symm (Nat.zero_add _).symm

theorem ld_bot0 (x5 : Vec Ideal S2x512x256 .f32) : sq (View.ld x5 r0_6) = botRows (p := 256) (q := 256) (plane 0 x5) := by
  funext i
  exact ld_unit3 x5 _ _ (i 0) (i 1) (ix3 (0 : Fin 2) (Fin.natAdd 256 (i 0)) (i 1)) rfl rfl (Nat.zero_add _).symm

theorem ld_top1 (x5 : Vec Ideal S2x512x256 .f32) : sq (View.ld x5 r0_11) = topRows (p := 256) (q := 256) (plane 1 x5) := by
  funext i
  exact ld_unit3 x5 _ _ (i 0) (i 1) (ix3 (1 : Fin 2) (Fin.castAdd 256 (i 0)) (i 1)) rfl (Nat.zero_add _).symm (Nat.zero_add _).symm

theorem ld_bot1 (x5 : Vec Ideal S2x512x256 .f32) : sq (View.ld x5 r0_12) = botRows (p := 256) (q := 256) (plane 1 x5) := by
  funext i
  exact ld_unit3 x5 _ _ (i 0) (i 1) (ix3 (1 : Fin 2) (Fin.natAdd 256 (i 0)) (i 1)) rfl rfl (Nat.zero_add _).symm

theorem ld_row0 (x : Vec Ideal S2x256 .f32) : row0 (View.ld x r0_4) = rowOf 0 x := by
  funext q
  exact ld_unit2 x _ _ q (ix2 (0 : Fin 2) q) rfl (Nat.zero_add _).symm

theorem ld_row1 (x : Vec Ideal S2x256 .f32) : row0 (View.ld x r0_10) = rowOf 1 x := by
  funext q
  exact ld_unit2 x _ _ q (ix2 (1 : Fin 2) q) rfl (Nat.zero_add _).symm

/-! ## One grid point's output block -/

/-- What the body leaves in its output block is the two depth steps on the blocks it was given. -/
theorem out_eq (x0 : FVec Ideal S512x256 .f32) (x1 : FVec Ideal S2x2048x512 .f32) (x2 : FVec Ideal S2x512x2048 .f32)
    (x3 : FVec Ideal S2x512x256 .f32) (x4 : FVec Ideal S2x256 .f32) (x5 : FVec Ideal S2x512x256 .f32)
    (x6 : FVec Ideal S2x256 .f32) :
    out0_7 (F := Ideal) x0 x1 x2 x3 x4 x5 x6 = net zf cf x0 x1 x2 x3 x4 x5 x6 := by
  unfold out0_7
  rw [View.canon_unit_zero hz2, pay1_eq, pay4_eq, pay3_eq, pay2_eq, ld_h, ld_adj0, ld_adj1, ld_a0, ld_a1, ld_W0, ld_W1,
    ld_top0, ld_bot0, ld_top1, ld_bot1, ld_row0 x4, ld_row1 x4, ld_row0 x6, ld_row1 x6]
  rfl

end Cert.Dhgn.KernelSide

end
-- ==== Proof.KernelArray.lean ====
/- From the kernel's blocks to its result array: every grid point is handed rows 512 q, …, 512 q + 511 of the state
   and of both adjacency matrices (q its block index) and the other arrays whole, so what it writes back is those
   rows of the network on the whole arrays; the four blocks tile the result array. -/
import proofs.«153416_g40089224740916_retrytranche2_1659_10_alg».proof.Proof.Gen.KernelIdeal.Value
import proofs.«153416_g40089224740916_retrytranche2_1659_10_alg».proof.Proof.KernelBlock

noncomputable section

namespace Cert.Dhgn.KernelArray

open Cert.KernelIdeal Cert.KernelIdeal.Gen Cert.KernelIdeal.Value Idealize.ShloMosaic Idealize.ShloMosaic.TcCoe Idealize.SL.Sem
  Idealize.ShloMosaic.ValueIdx Cert.Dhgn Cert.Dhgn.KernelSide
open Idealize.ShloMosaic.Pipeline (Dat)

variable (m : (ℓ : Loc nD τ sig) → Buf (Elt Ideal) ℓ) (ρ : Dev nD → PrngReg)

/-- The argument arrays as the region finds them. -/
abbrev arr0 (c : Dev nD) : FVec Ideal S2048x256 .f32 := V m c main_arg0
abbrev arr1 (c : Dev nD) : FVec Ideal S2x2048x512 .f32 := V m c main_arg1
abbrev arr2 (c : Dev nD) : FVec Ideal S2x2048x2048 .f32 := V m c main_arg2
abbrev arr3 (c : Dev nD) : FVec Ideal S2x512x256 .f32 := V m c main_arg3
abbrev arr4 (c : Dev nD) : FVec Ideal S2x256 .f32 := V m c main_arg4
abbrev arr5 (c : Dev nD) : FVec Ideal S2x512x256 .f32 := V m c main_arg5
abbrev arr6 (c : Dev nD) : FVec Ideal S2x256 .f32 := V m c main_arg6

/-- What the result array ends holding: the two depth steps on the whole argument arrays. -/
def result (c : Dev nD) : FVec Ideal S2048x256 .f32 :=
  net zf cf (arr0 m c) (arr1 m c) (arr2 m c) (arr3 m c) (arr4 m c) (arr5 m c) (arr6 m c)

/-- The index maps over the grid: the state's and the adjacency's row blocks move with the output's, every other
    window stays at block 0, and the output's row-block index is at most 3. -/
theorem idx_facts : ∀ t : Fin cfg0.N,
    win0_0.index t (0 : Fin 2) = win0_7.index t (0 : Fin 2) ∧ win0_0.index t (1 : Fin 2) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = win0_7.index t (0 : Fin 2) ∧ win0_2.index t (2 : Fin 3) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 3) = 0 ∧ win0_5.index t (1 : Fin 3) = 0 ∧ win0_5.index t (2 : Fin 3) = 0
    ∧ win0_6.index t (0 : Fin 2) = 0 ∧ win0_6.index t (1 : Fin 2) = 0
    ∧ win0_7.index t (0 : Fin 2) ≤ 3 ∧ win0_7.index t (1 : Fin 2) = 0 :=
  (by decide +kernel : ∀ t : Fin grid0.N, _)

/-- Every row block of the result is some grid point's. -/
theorem idx_onto : ∀ q0 : Fin 4, ∃ t : Fin cfg0.N, win0_7.index t = ![q0.val, 0] :=
  (by decide +kernel : ∀ q0 : Fin 4, ∃ t : Fin grid0.N, win0_7.index t = ![q0.val, 0])

/-- The first row of grid point t's blocks. -/
abbrev row₀ (t : Fin cfg0.N) : ℕ := win0_7.index t (0 : Fin 2) * 512

theorem row₀_le (t : Fin cfg0.N) : row₀ t + 512 ≤ 2048 := by
  have := (idx_facts t).2.2.2.2.2.2.2.2.2.2.2.2.2.2.2.2.2.2.1
  show win0_7.index t (0 : Fin 2) * 512 + 512 ≤ 2048
  omega

/-! ## The input windows' blocks -/

/-- Window 1's block is its whole array at every grid point. -/
theorem blk1_eq (c : Dev nD) (t : Fin cfg0.N) : iblk m c 1 t = arr1 m c := by
  obtain ⟨e00, e01, e10, e11, e12, e20, e21, e22, e30, e31, e32, e40, e41, e50, e51, e52, e60, e61, e7le, e71⟩ := idx_facts t
  funext y
  show V m c main_arg1 (((cfg0.win 1).blk t).view.emb y) = V m c main_arg1 y
  refine congrArg (V m c main_arg1) (funext fun a => Fin.ext ?_)
  match a with
  | ⟨0, _⟩ => show win0_1.index t (0 : Fin 3) * 2 + 1 * (y 0).val = (y 0).val; omega
  | ⟨1, _⟩ => show win0_1.index t (1 : Fin 3) * 2048 + 1 * (y 1).val = (y 1).val; omega
  | ⟨2, _⟩ => show win0_1.index t (2 : Fin 3) * 512 + 1 * (y 2).val = (y 2).val; omega

/-- Window 3's block is its whole array at every grid point. -/
theorem blk3_eq (c : Dev nD) (t : Fin cfg0.N) : iblk m c 3 t = arr3 m c := by
  obtain ⟨e00, e01, e10, e11, e12, e20, e21, e22, e30, e31, e32, e40, e41, e50, e51, e52, e60, e61, e7le, e71⟩ := idx_facts t
  funext y
  show V m c main_arg3 (((cfg0.win 3).blk t).view.emb y) = V m c main_arg3 y
  refine congrArg (V m c main_arg3) (funext fun a => Fin.ext ?_)
  match a with
  | ⟨0, _⟩ => show win0_3.index t (0 : Fin 3) * 2 + 1 * (y 0).val = (y 0).val; omega
  | ⟨1, _⟩ => show win0_3.index t (1 : Fin 3) * 512 + 1 * (y 1).val = (y 1).val; omega
  | ⟨2, _⟩ => show win0_3.index t (2 : Fin 3) * 256 + 1 * (y 2).val = (y 2).val; omega

/-- Window 4's block is its whole array at every grid point. -/
theorem blk4_eq (c : Dev nD) (t : Fin cfg0.N) : iblk m c 4 t = arr4 m c := by
  obtain ⟨e00, e01, e10, e11, e12, e20, e21, e22, e30, e31, e32, e40, e41, e50, e51, e52, e60, e61, e7le, e71⟩ := idx_facts t
  funext y
  show V m c main_arg4 (((cfg0.win 4).blk t).view.emb y) = V m c main_arg4 y
  refine congrArg (V m c main_arg4) (funext fun a => Fin.ext ?_)
  match a with
  | ⟨0, _⟩ => show win0_4.index t (0 : Fin 2) * 2 + 1 * (y 0).val = (y 0).val; omega
  | ⟨1, _⟩ => show win0_4.index t (1 : Fin 2) * 256 + 1 * (y 1).val = (y 1).val; omega

/-- Window 5's block is its whole array at every grid point. -/
theorem blk5_eq (c : Dev nD) (t : Fin cfg0.N) : iblk m c 5 t = arr5 m c := by
  obtain ⟨e00, e01, e10, e11, e12, e20, e21, e22, e30, e31, e32, e40, e41, e50, e51, e52, e60, e61, e7le, e71⟩ := idx_facts t
  funext y
  show V m c main_arg5 (((cfg0.win 5).blk t).view.emb y) = V m c main_arg5 y
  refine congrArg (V m c main_arg5) (funext fun a => Fin.ext ?_)
  match a with
  | ⟨0, _⟩ => show win0_5.index t (0 : Fin 3) * 2 + 1 * (y 0).val = (y 0).val; omega
  | ⟨1, _⟩ => show win0_5.index t (1 : Fin 3) * 512 + 1 * (y 1).val = (y 1).val; omega
  | ⟨2, _⟩ => show win0_5.index t (2 : Fin 3) * 256 + 1 * (y 2).val = (y 2).val; omega

/-- Window 6's block is its whole array at every grid point. -/
theorem blk6_eq (c : Dev nD) (t : Fin cfg0.N) : iblk m c 6 t = arr6 m c := by
  obtain ⟨e00, e01, e10, e11, e12, e20, e21, e22, e30, e31, e32, e40, e41, e50, e51, e52, e60, e61, e7le, e71⟩ := idx_facts t
  funext y
  show V m c main_arg6 (((cfg0.win 6).blk t).view.emb y) = V m c main_arg6 y
  refine congrArg (V m c main_arg6) (funext fun a => Fin.ext ?_)
  match a with
  | ⟨0, _⟩ => show win0_6.index t (0 : Fin 2) * 2 + 1 * (y 0).val = (y 0).val; omega
  | ⟨1, _⟩ => show win0_6.index t (1 : Fin 2) * 256 + 1 * (y 1).val = (y 1).val; omega

/-- The state's block at grid point t: its rows from row₀ t on. -/
theorem blk0_eq (c : Dev nD) (t : Fin cfg0.N) : iblk m c 0 t = rowBlock 512 (row₀ t) (row₀_le t) (arr0 m c) := by
  obtain ⟨e00, e01, e10, e11, e12, e20, e21, e22, e30, e31, e32, e40, e41, e50, e51, e52, e60, e61, e7le, e71⟩ := idx_facts t
  funext y
  show V m c main_arg0 (((cfg0.win 0).blk t).view.emb y) = V m c main_arg0 _
  refine congrArg (V m c main_arg0) (funext fun a => Fin.ext ?_)
  match a with
  | ⟨0, _⟩ => show win0_0.index t (0 : Fin 2) * 512 + 1 * (y 0).val = win0_7.index t (0 : Fin 2) * 512 + (y 0).val; omega
  | ⟨1, _⟩ => show win0_0.index t (1 : Fin 2) * 256 + 1 * (y 1).val = (y 1).val; omega

/-- The adjacency's block at grid point t: the same rows of both its matrices. -/
theorem blk2_eq (c : Dev nD) (t : Fin cfg0.N) : iblk m c 2 t = rowBlockS 512 (row₀ t) (row₀_le t) (arr2 m c) := by
  obtain ⟨e00, e01, e10, e11, e12, e20, e21, e22, e30, e31, e32, e40, e41, e50, e51, e52, e60, e61, e7le, e71⟩ := idx_facts t
  funext y
  show V m c main_arg2 (((cfg0.win 2).blk t).view.emb y) = V m c main_arg2 _
  refine congrArg (V m c main_arg2) (funext fun a => Fin.ext ?_)
  match a with
  | ⟨0, _⟩ => show win0_2.index t (0 : Fin 3) * 2 + 1 * (y 0).val = (y 0).val; omega
  | ⟨1, _⟩ => show win0_2.index t (1 : Fin 3) * 512 + 1 * (y 1).val = win0_7.index t (0 : Fin 2) * 512 + (y 1).val; omega
  | ⟨2, _⟩ => show win0_2.index t (2 : Fin 3) * 2048 + 1 * (y 2).val = (y 2).val; omega

/-! ## What a grid point writes back, and the result array -/

/-- Grid point t writes back its rows of the network on the whole arrays. -/
theorem flushed_eq (c : Dev nD) (t : Fin cfg0.N) :
    (dats m 0 c).flushed 7 t = ((cfg0.win 7).blk t).view.read (Elt Ideal) (result m c) := by
  refine (flushed7 m c t).trans ?_
  rw [out_eq, blk0_eq, blk1_eq, blk2_eq, blk3_eq, blk4_eq, blk5_eq, blk6_eq, net_rowBlock]
  obtain ⟨e00, e01, e10, e11, e12, e20, e21, e22, e30, e31, e32, e40, e41, e50, e51, e52, e60, e61, e7le, e71⟩ := idx_facts t
  funext y
  show result m c _ = result m c (((cfg0.win 7).blk t).view.emb y)
  refine congrArg (result m c) (funext fun a => Fin.ext ?_)
  match a with
  | ⟨0, _⟩ => show win0_7.index t (0 : Fin 2) * 512 + (y 0).val = win0_7.index t (0 : Fin 2) * 512 + 1 * (y 0).val; omega
  | ⟨1, _⟩ => show (y 1).val = win0_7.index t (1 : Fin 2) * 256 + 1 * (y 1).val; omega

/-- An index of the result array is in grid point t's block iff each coordinate is in the block's range. -/
theorem mem_blk (t : Fin cfg0.N) (i : S2048x256.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v0).slice (win0_7.rect t)).set ↔ _
  rw [View.set_slice_whole, Rect.mem_set_unit]
  exact Iff.rfl

/-- Every index of the result array is in some grid point's block: row r is in block r / 512. -/
theorem cover (i : S2048x256.Idx) :
    ∃ t : Fin cfg0.N, (cfg0.win 7).flush t = true ∧ i ∈ ((cfg0.win 7).blk t).view.set := by
  have hi0 : (i 0).val < 2048 := (i 0).isLt
  have hi1 : (i 1).val < 256 := (i 1).isLt
  obtain ⟨t, ht⟩ := idx_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

/-- The result array after the run. -/
theorem final (c : Dev nD) : (dats m 0 c).arrAt 7 cfg0.N = result m c :=
  (dats m 0 c).arrAt_eq_of_cover 7 (result m c) (fun t _ => flushed_eq m c t) cover

/-- The kernel's run with its result array named: the network of the argument arrays; the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (run_blocks m ρ)

end Cert.Dhgn.KernelArray

end
-- ==== Proof.HostLayout.lean ====
/- Whole-array readings of the host program's layout operations: broadcast_in_dim of a scalar, of a vector to a
   column or a row, of a column over columns and of a row over rows; and the host's sum along the rows. -/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dhgn.HostLayout

open Idealize.ShloMosaic Idealize.ShloMosaic.ValueIdx

variable {α : Type}

/-- A rank-0 array broadcast to any shape is its one element everywhere. -/
theorem bcastScalar_eq {t : Shape} (x : (⟨0, ![]⟩ : Shape).Idx → α) (dims : Fin 0 → Fin t.rank)
    (h : (⟨0, ![]⟩ : Shape).BroadcastsInDim t dims) :
    broadcastInDim t dims h x = fun _ => x ix0 := by
  funext j
  exact broadcastInDim_apply dims h x j ix0 (fun a => a.elim0)

/-- An [m] array placed along the rows of an [m, 1] column. -/
theorem bcastColumn_eq {m : ℕ} (v : (⟨1, ![m]⟩ : Shape).Idx → α)
    (h : (⟨1, ![m]⟩ : Shape).BroadcastsInDim ⟨2, ![m, 1]⟩ ![0]) :
    broadcastInDim ⟨2, ![m, 1]⟩ ![0] h v = fun i => v (ix1 (i 0)) := by
  funext i
  refine broadcastInDim_apply _ h v i (ix1 (i 0)) fun a => ?_
  match a with
  | ⟨0, _⟩ =>
    show (i 0).val = if m = 1 then 0 else (i 0).val
    split
    · have := idx2_lt0 i; omega
    · rfl

/-- An [m, 1] column broadcast over n columns. -/
theorem bcastOverColumns_eq {m n : ℕ} (w : (⟨2, ![m, 1]⟩ : Shape).Idx → α)
    (h : (⟨2, ![m, 1]⟩ : Shape).BroadcastsInDim ⟨2, ![m, n]⟩ ![0, 1]) :
    broadcastInDim ⟨2, ![m, n]⟩ ![0, 1] h w = fun i => w (ix2 (i 0) (0 : Fin 1)) := by
  funext i
  refine broadcastInDim_apply _ h w i (ix2 (i 0) (0 : Fin 1)) fun a => ?_
  match a with
  | ⟨0, _⟩ =>
    show (i 0).val = if m = 1 then 0 else (i 0).val
    split
    · have := idx2_lt0 i; omega
    · rfl
  | ⟨1, _⟩ => rfl

/-- An [n] array placed along the columns of a [1, n] row. -/
theorem bcastRow_eq {n : ℕ} (v : (⟨1, ![n]⟩ : Shape).Idx → α)
    (h : (⟨1, ![n]⟩ : Shape).BroadcastsInDim ⟨2, ![1, n]⟩ ![1]) :
    broadcastInDim ⟨2, ![1, n]⟩ ![1] h v = fun i => v (ix1 (i 1)) := by
  funext i
  refine broadcastInDim_apply _ h v i (ix1 (i 1)) fun a => ?_
  match a with
  | ⟨0, _⟩ =>
    show (i 1).val = if n = 1 then 0 else (i 1).val
    split
    · have := idx2_lt1 i; omega
    · rfl

/-- A [1, n] row broadcast over m rows. -/
theorem bcastOverRows_eq {m n : ℕ} (w : (⟨2, ![1, n]⟩ : Shape).Idx → α)
    (h : (⟨2, ![1, n]⟩ : Shape).BroadcastsInDim ⟨2, ![m, n]⟩ ![0, 1]) :
    broadcastInDim ⟨2, ![m, n]⟩ ![0, 1] h w = fun i => w (ix2 (0 : Fin 1) (i 1)) := by
  funext i
  refine broadcastInDim_apply _ h w i (ix2 (0 : Fin 1) (i 1)) fun a => ?_
  match a with
  | ⟨0, _⟩ => rfl
  | ⟨1, _⟩ =>
    show (i 1).val = if n = 1 then 0 else (i 1).val
    split
    · have := idx2_lt1 i; omega
    · rfl

/-- The host's sum along the rows of an [m, K] array of extended reals: the initial value plus each row's sum. -/
theorem hostRowSum_eq {m K : ℕ} (A : FVec Ideal ⟨2, ![m, K]⟩ .f32) (init : (⟨0, ![]⟩ : Shape).Idx → Ideal .f32)
    (h : (⟨2, ![m, K]⟩ : Shape).ReducesTo [1] ⟨1, ![m]⟩) (h' : (⟨2, ![m, K]⟩ : Shape).Reduces [1] ⟨1, ![m]⟩)
    (hu : 0 < (⟨0, ![]⟩ : Shape).numel) :
    Host.reduceAdd A init h hu = fun j => init ix0 + ∑ k : Fin K, A (ix2 (j 0) k) := by
  funext j
  simp only [Host.reduceAdd, Ideal.hostReduceAdd_def]
  rw [Ideal.hostReduceAdd_single h h']
  refine congrArg₂ (· + ·) (congrArg init (eq_ix0 _)) (Finset.sum_congr rfl fun k _ => ?_)
  exact congrArg A (funext fun a => Fin.ext (by
    match a with
    | ⟨0, _⟩ => rfl
    | ⟨1, _⟩ => rfl))

end Cert.Dhgn.HostLayout

end
-- ==== Proof.RefValue.lean ====
/- The reference's result as the two depth steps on the whole arrays: each dot_general is the textbook product,
   the host's row sum a row's sum from zero, each slice-and-reshape matrix k of a stack, each broadcast a
   re-indexing; and the product with the embedding and the state set side by side splits over the top and the
   bottom rows of the second layer's weights. -/
import proofs.«153416_g40089224740916_retrytranche2_1659_10_alg».proof.Proof.Gen.ReferenceIdeal.Read
import proofs.«153416_g40089224740916_retrytranche2_1659_10_alg».proof.Proof.Step
import proofs.«153416_g40089224740916_retrytranche2_1659_10_alg».proof.Proof.Layout
import proofs.«153416_g40089224740916_retrytranche2_1659_10_alg».proof.Proof.HostLayout

noncomputable section

open scoped BigOperators

namespace Cert.Dhgn.RefSide

open Cert.ReferenceIdeal Cert.ReferenceIdeal.Gen Cert.ReferenceIdeal.Read Idealize.ShloMosaic Idealize.ShloMosaic.ValueIdx
  Cert.MatProd Cert.Dhgn Cert.Dhgn.Layout Cert.Dhgn.HostLayout

/-! ## The two products -/

theorem hprodA (X : FVec Ideal S2048x2048 .f32) (Y : FVec Ideal S2048x512 .f32) :
    Host.dotGeneral dot_S2048x2048_S2048x512_S2048x512_1_0_0_1_n_n none X Y = matProd X Y :=
  hostDot_eq Facts₀.dot_S2048x2048_S2048x512_S2048x512_1_0_0_1_n_n_wf none X Y

theorem hprodB (X : FVec Ideal S2048x512 .f32) (Y : FVec Ideal S512x256 .f32) :
    Host.dotGeneral dot_S2048x512_S512x256_S2048x256_1_0_0_1_n_n none X Y = matProd X Y :=
  hostDot_eq Facts₀.dot_S2048x512_S512x256_S2048x256_1_0_0_1_n_n_wf none X Y

/-! ## The degree, the biases and the floor, broadcast -/

theorem hdeg_eq (A : FVec Ideal S2048x2048 .f32) :
    (broadcastInDim S2048x512 ![0, 1] bcast_S2048x1_S2048x512_0_1
      (maximumf (broadcastInDim S2048x1 ![] bcast_S_S2048x1 (id (constant (F := Ideal) S_ .f32 0x358637BD#32)))
        (broadcastInDim S2048x1 ![0] bcast_S2048_S2048x1_0
          (Host.reduceAdd A (constant (F := Ideal) S_ .f32 0x00000000#32) reducesTo_S2048x2048_S2048_d1 h_S_))))
      = fun i => degOf cf A (i 0) := by
  refine (bcastOverColumns_eq _ _).trans ?_
  funext i
  refine congrArg₂ max (congrFun (bcastScalar_eq _ _ _) _) ((congrFun (bcastColumn_eq _ _) _).trans
    ((congrFun (hostRowSum_eq A _ _ (by decide) _) _).trans ?_))
  exact (congrArg (fun z : EReal => z + ∑ k : Fin 2048, A (ix2 (i 0) k)) Ideal.ofBits_zero_f32).trans (zero_add _)

theorem hbias_eq (b1 : FVec Ideal S256 .f32) :
    (broadcastInDim S2048x256 ![0, 1] bcast_S1x256_S2048x256_0_1 (broadcastInDim S1x256 ![1] bcast_S256_S1x256_1 b1)) = fun i => b1 (ix1 (i 1)) := by
  refine (bcastOverRows_eq _ _).trans ?_
  funext i
  exact congrFun (bcastRow_eq b1 _) _

theorem hzero_eq : (broadcastInDim S2048x256 ![] bcast_S_S2048x256 (constant (F := Ideal) S_ .f32 0x00000000#32)) = fun _ => zf :=
  bcastScalar_eq _ _ _

/-! ## The stages of one depth step -/

theorem hagg_eq (A : FVec Ideal S2048x2048 .f32) (a : FVec Ideal S2048x512 .f32) :
    Host.divf (Host.dotGeneral dot_S2048x2048_S2048x512_S2048x512_1_0_0_1_n_n none A a) (broadcastInDim S2048x512 ![0, 1] bcast_S2048x1_S2048x512_0_1
      (maximumf (broadcastInDim S2048x1 ![] bcast_S_S2048x1 (id (constant (F := Ideal) S_ .f32 0x358637BD#32)))
        (broadcastInDim S2048x1 ![0] bcast_S2048_S2048x1_0
          (Host.reduceAdd A (constant (F := Ideal) S_ .f32 0x00000000#32) reducesTo_S2048x2048_S2048_d1 h_S_))))
      = aggOf cf A a := by
  rw [hprodA, hdeg_eq]
  rfl

theorem hemb_eq (X : FVec Ideal S2048x512 .f32) (W : FVec Ideal S512x256 .f32) (b1 : FVec Ideal S256 .f32) :
    maximumf (addf (Host.dotGeneral dot_S2048x512_S512x256_S2048x256_1_0_0_1_n_n none X W) (broadcastInDim S2048x256 ![0, 1] bcast_S1x256_S2048x256_0_1 (broadcastInDim S1x256 ![1] bcast_S256_S1x256_1 b1))) (broadcastInDim S2048x256 ![] bcast_S_S2048x256 (constant (F := Ideal) S_ .f32 0x00000000#32))
      = biasRelu zf (matProd X W) (fun q => b1 (ix1 q)) := by
  rw [hprodB, hbias_eq, hzero_eq]
  rfl

theorem cat_left (e h : FVec Ideal S2048x256 .f32) (r : Fin 2048) (j : Fin 256) :
    concatenate S2048x512 1 [⟨S2048x256, e⟩, ⟨S2048x256, h⟩] concatenates_S2048x256_S2048x256_S2048x512_d1
      (ix2 r (Fin.castAdd 256 j)) = e (ix2 r j) :=
  concatenate_pair_apply_left (t := S2048x512) (s₁ := S2048x256) (s₂ := S2048x256) 1 e h
    concatenates_S2048x256_S2048x256_S2048x512_d1 (ix2 r (Fin.castAdd 256 j)) rfl (ix2 r j) (fun b => by
    match b with
    | ⟨0, _⟩ => rfl
    | ⟨1, _⟩ => rfl)

theorem cat_right (e h : FVec Ideal S2048x256 .f32) (r : Fin 2048) (j : Fin 256) :
    concatenate S2048x512 1 [⟨S2048x256, e⟩, ⟨S2048x256, h⟩] concatenates_S2048x256_S2048x256_S2048x512_d1
      (ix2 r (Fin.natAdd 256 j)) = h (ix2 r j) :=
  concatenate_pair_apply_right (t := S2048x512) (s₁ := S2048x256) (s₂ := S2048x256) 1 e h
    concatenates_S2048x256_S2048x256_S2048x512_d1 (ix2 r (Fin.natAdd 256 j)) rfl rfl (ix2 r j) (fun b hb => by
    match b with
    | ⟨0, _⟩ => rfl
    | ⟨1, _⟩ => exact absurd rfl hb) (by show j.val + 256 = 256 + j.val; omega)

theorem hout_eq (E h : FVec Ideal S2048x256 .f32) (U : FVec Ideal S512x256 .f32) (d1 : FVec Ideal S256 .f32) :
    maximumf (addf (Host.dotGeneral dot_S2048x512_S512x256_S2048x256_1_0_0_1_n_n none
        (concatenate S2048x512 1 [⟨S2048x256, E⟩, ⟨S2048x256, h⟩] concatenates_S2048x256_S2048x256_S2048x512_d1) U)
        (broadcastInDim S2048x256 ![0, 1] bcast_S1x256_S2048x256_0_1 (broadcastInDim S1x256 ![1] bcast_S256_S1x256_1 d1))) (broadcastInDim S2048x256 ![] bcast_S_S2048x256 (constant (F := Ideal) S_ .f32 0x00000000#32))
      = biasRelu zf (fun i => matProd E (topRows (p := 256) (q := 256) U) i + matProd h (botRows (p := 256) (q := 256) U) i)
          (fun q => d1 (ix1 q)) := by
  rw [hprodB, hbias_eq, hzero_eq]
  funext i
  refine congrArg (fun z : EReal => max (z + d1 (ix1 (i 1))) zf) ?_
  exact matProd_sideBySide (p := 256) (q := 256) E h U _ (cat_left E h) (cat_right E h) i

/-! ## The slices: matrix k of each stack, row k of each bias -/

theorem adj0_eq (x2 : FVec Ideal S2x2048x2048 .f32) : val_main_v1 (F := Ideal) x2 = plane 0 x2 := by
  refine (squeeze_eq (val_main_v0 (F := Ideal) x2) shapeCasts_S1x2048x2048_S2048x2048).trans ?_
  funext i
  refine (val_main_v0_apply (F := Ideal) x2 _).trans ?_
  exact congrArg x2 (funext fun ax => Fin.ext (by
    match ax with
    | ⟨0, _⟩ => rfl
    | ⟨1, _⟩ => rfl
    | ⟨2, _⟩ => rfl))

theorem adj1_eq (x2 : FVec Ideal S2x2048x2048 .f32) : val_main_v30 (F := Ideal) x2 = plane 1 x2 := by
  refine (squeeze_eq (val_main_v29 (F := Ideal) x2) shapeCasts_S1x2048x2048_S2048x2048).trans ?_
  funext i
  refine (val_main_v29_apply (F := Ideal) x2 _).trans ?_
  exact congrArg x2 (funext fun ax => Fin.ext (by
    match ax with
    | ⟨0, _⟩ => rfl
    | ⟨1, _⟩ => rfl
    | ⟨2, _⟩ => rfl))

theorem a0_eq (x1 : FVec Ideal S2x2048x512 .f32) : val_main_v6 (F := Ideal) x1 = plane 0 x1 := by
  refine (squeeze_eq (val_main_v5 (F := Ideal) x1) shapeCasts_S1x2048x512_S2048x512).trans ?_
  funext i
  refine (val_main_v5_apply (F := Ideal) x1 _).trans ?_
  exact congrArg x1 (funext fun ax => Fin.ext (by
    match ax with
    | ⟨0, _⟩ => rfl
    | ⟨1, _⟩ => rfl
    | ⟨2, _⟩ => rfl))

theorem a1_eq (x1 : FVec Ideal S2x2048x512 .f32) : val_main_v35 (F := Ideal) x1 = plane 1 x1 := by
  refine (squeeze_eq (val_main_v34 (F := Ideal) x1) shapeCasts_S1x2048x512_S2048x512).trans ?_
  funext i
  refine (val_main_v34_apply (F := Ideal) x1 _).trans ?_
  exact congrArg x1 (funext fun ax => Fin.ext (by
    match ax with
    | ⟨0, _⟩ => rfl
    | ⟨1, _⟩ => rfl
    | ⟨2, _⟩ => rfl))

theorem W0_eq (x3 : FVec Ideal S2x512x256 .f32) : val_main_v11 (F := Ideal) x3 = plane 0 x3 := by
  refine (squeeze_eq (val_main_v10 (F := Ideal) x3) shapeCasts_S1x512x256_S512x256).trans ?_
  funext i
  refine (val_main_v10_apply (F := Ideal) x3 _).trans ?_
  exact congrArg x3 (funext fun ax => Fin.ext (by
    match ax with
    | ⟨0, _⟩ => rfl
    | ⟨1, _⟩ => rfl
    | ⟨2, _⟩ => rfl))

theorem W1_eq (x3 : FVec Ideal S2x512x256 .f32) : val_main_v40 (F := Ideal) x3 = plane 1 x3 := by
  refine (squeeze_eq (val_main_v39 (F := Ideal) x3) shapeCasts_S1x512x256_S512x256).trans ?_
  funext i
  refine (val_main_v39_apply (F := Ideal) x3 _).trans ?_
  exact congrArg x3 (funext fun ax => Fin.ext (by
    match ax with
    | ⟨0, _⟩ => rfl
    | ⟨1, _⟩ => rfl
    | ⟨2, _⟩ => rfl))

theorem U0_eq (x5 : FVec Ideal S2x512x256 .f32) : val_main_v21 (F := Ideal) x5 = plane 0 x5 := by
  refine (squeeze_eq (val_main_v20 (F := Ideal) x5) shapeCasts_S1x512x256_S512x256).trans ?_
  funext i
  refine (val_main_v20_apply (F := Ideal) x5 _).trans ?_
  exact congrArg x5 (funext fun ax => Fin.ext (by
    match ax with
    | ⟨0, _⟩ => rfl
    | ⟨1, _⟩ => rfl
    | ⟨2, _⟩ => rfl))

theorem U1_eq (x5 : FVec Ideal S2x512x256 .f32) : val_main_v50 (F := Ideal) x5 = plane 1 x5 := by
  refine (squeeze_eq (val_main_v49 (F := Ideal) x5) shapeCasts_S1x512x256_S512x256).trans ?_
  funext i
  refine (val_main_v49_apply (F := Ideal) x5 _).trans ?_
  exact congrArg x5 (funext fun ax => Fin.ext (by
    match ax with
    | ⟨0, _⟩ => rfl
    | ⟨1, _⟩ => rfl
    | ⟨2, _⟩ => rfl))

theorem b0_eq (x4 : FVec Ideal S2x256 .f32) : (fun q : Fin 256 => val_main_v14 (F := Ideal) x4 (ix1 q)) = rowOf 0 x4 := by
  funext q
  refine (shapeCast_1a_a_apply (val_main_v13 (F := Ideal) x4) shapeCasts_S1x256_S256 q).trans ?_
  refine (val_main_v13_apply (F := Ideal) x4 _).trans ?_
  exact congrArg x4 (funext fun ax => Fin.ext (by
    match ax with
    | ⟨0, _⟩ => rfl
    | ⟨1, _⟩ => rfl))

theorem b1_eq (x4 : FVec Ideal S2x256 .f32) : (fun q : Fin 256 => val_main_v43 (F := Ideal) x4 (ix1 q)) = rowOf 1 x4 := by
  funext q
  refine (shapeCast_1a_a_apply (val_main_v42 (F := Ideal) x4) shapeCasts_S1x256_S256 q).trans ?_
  refine (val_main_v42_apply (F := Ideal) x4 _).trans ?_
  exact congrArg x4 (funext fun ax => Fin.ext (by
    match ax with
    | ⟨0, _⟩ => rfl
    | ⟨1, _⟩ => rfl))

theorem d0_eq (x6 : FVec Ideal S2x256 .f32) : (fun q : Fin 256 => val_main_v24 (F := Ideal) x6 (ix1 q)) = rowOf 0 x6 := by
  funext q
  refine (shapeCast_1a_a_apply (val_main_v23 (F := Ideal) x6) shapeCasts_S1x256_S256 q).trans ?_
  refine (val_main_v23_apply (F := Ideal) x6 _).trans ?_
  exact congrArg x6 (funext fun ax => Fin.ext (by
    match ax with
    | ⟨0, _⟩ => rfl
    | ⟨1, _⟩ => rfl))

theorem d1_eq (x6 : FVec Ideal S2x256 .f32) : (fun q : Fin 256 => val_main_v53 (F := Ideal) x6 (ix1 q)) = rowOf 1 x6 := by
  funext q
  refine (shapeCast_1a_a_apply (val_main_v52 (F := Ideal) x6) shapeCasts_S1x256_S256 q).trans ?_
  refine (val_main_v52_apply (F := Ideal) x6 _).trans ?_
  exact congrArg x6 (funext fun ax => Fin.ext (by
    match ax with
    | ⟨0, _⟩ => rfl
    | ⟨1, _⟩ => rfl))

/-! ## The two depth steps -/

variable (x0 : FVec Ideal S2048x256 .f32) (x1 : FVec Ideal S2x2048x512 .f32) (x2 : FVec Ideal S2x2048x2048 .f32)
  (x3 : FVec Ideal S2x512x256 .f32) (x4 : FVec Ideal S2x256 .f32) (x5 : FVec Ideal S2x512x256 .f32)
  (x6 : FVec Ideal S2x256 .f32)

theorem emb0_eq : val_main_v18 (F := Ideal) x1 x2 x3 x4
    = embOf zf cf (plane 0 x2) (plane 0 x1) (plane 0 x3) (rowOf 0 x4) := by
  refine (hemb_eq (val_main_v9 (F := Ideal) x1 x2) (val_main_v11 (F := Ideal) x3) (val_main_v14 (F := Ideal) x4)).trans ?_
  rw [show val_main_v9 (F := Ideal) x1 x2 = aggOf cf (val_main_v1 (F := Ideal) x2) (val_main_v6 (F := Ideal) x1) from hagg_eq _ _,
    adj0_eq, a0_eq, W0_eq, b0_eq]
  rfl

theorem step0_eq : val_main_v28 (F := Ideal) x0 x1 x2 x3 x4 x5 x6
    = stepOf zf cf (plane 0 x2) (plane 0 x1) (plane 0 x3) (rowOf 0 x4) (topRows (p := 256) (q := 256) (plane 0 x5))
        (botRows (p := 256) (q := 256) (plane 0 x5)) (rowOf 0 x6) x0 := by
  refine (hout_eq (val_main_v18 (F := Ideal) x1 x2 x3 x4) x0 (val_main_v21 (F := Ideal) x5) (val_main_v24 (F := Ideal) x6)).trans ?_
  rw [emb0_eq, U0_eq, d0_eq]
  rfl

theorem emb1_eq : val_main_v47 (F := Ideal) x1 x2 x3 x4
    = embOf zf cf (plane 1 x2) (plane 1 x1) (plane 1 x3) (rowOf 1 x4) := by
  refine (hemb_eq (val_main_v38 (F := Ideal) x1 x2) (val_main_v40 (F := Ideal) x3) (val_main_v43 (F := Ideal) x4)).trans ?_
  rw [show val_main_v38 (F := Ideal) x1 x2 = aggOf cf (val_main_v30 (F := Ideal) x2) (val_main_v35 (F := Ideal) x1) from hagg_eq _ _,
    adj1_eq, a1_eq, W1_eq, b1_eq]
  rfl

/-- The reference's result is the two depth steps on the whole arrays. -/
theorem ref_eq : val_main_v57 (F := Ideal) x0 x1 x2 x3 x4 x5 x6 = net zf cf x0 x1 x2 x3 x4 x5 x6 := by
  refine (hout_eq (val_main_v47 (F := Ideal) x1 x2 x3 x4) (val_main_v28 (F := Ideal) x0 x1 x2 x3 x4 x5 x6)
    (val_main_v50 (F := Ideal) x5) (val_main_v53 (F := Ideal) x6)).trans ?_
  rw [emb1_eq, step0_eq, U1_eq, d1_eq]
  rfl

end Cert.Dhgn.RefSide

end
-- ==== Proof.lean ====
/- Two depth steps of mean-aggregation message passing over 2048 agents. Each step: every agent's degree is its
   adjacency row's sum clamped below by 1e-6; its neighbours' messages are averaged, (adj a) / deg; the average goes
   through a linear layer and is floored at zero; and the new state is the floor at zero of that embedding and the old
   state, set side by side, through a second linear layer. The kernel works on four blocks of 512 agents and, instead
   of setting embedding and state side by side, multiplies them by the top and by the bottom 256 rows of the second
   layer's weights and adds: a sum over 512 terms is the sum of its first 256 and its last 256. Both programs are the
   same function of the extended reals, term by term (the same words for 1e-6 and 0, the same quotient), so no
   finiteness is used. -/
import proofs.«153416_g40089224740916_retrytranche2_1659_10_alg».proof.Defs
import proofs.«153416_g40089224740916_retrytranche2_1659_10_alg».proof.Proof.Gen.Kernel.Frame
import proofs.«153416_g40089224740916_retrytranche2_1659_10_alg».proof.Proof.Gen.KernelIdeal.Frame
import proofs.«153416_g40089224740916_retrytranche2_1659_10_alg».proof.Proof.Gen.KernelIdeal.Value
import proofs.«153416_g40089224740916_retrytranche2_1659_10_alg».proof.Proof.Gen.ReferenceIdeal.Run
import proofs.«153416_g40089224740916_retrytranche2_1659_10_alg».proof.Proof.Gen.ReferenceIdeal.Read
import proofs.«153416_g40089224740916_retrytranche2_1659_10_alg».proof.Proof.Gen.Pre_finite_inputs
import proofs.«153416_g40089224740916_retrytranche2_1659_10_alg».proof.Proof.KernelArray
import proofs.«153416_g40089224740916_retrytranche2_1659_10_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The kernel's result array is the network of its argument arrays (block by block, the blocks tiling it); the
    reference's is the same network of arguments that agree. -/
theorem algebraic : Cert.algebraic_KernelIdeal_ReferenceIdeal := by
  intro m ρ m' ρ' _ hagree
  refine ⟨fun c => Cert.Dhgn.KernelArray.result m c, Cert.Dhgn.KernelArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v57_eq, Cert.Dhgn.RefSide.ref_eq, (hagree c).1, (hagree c).2.1, (hagree c).2.2.1,
    (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
